-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S64x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S100000x64 .f32) (main_arg3 : FVec F S64x128 .f32) (main_arg4 : FVec F S128 .f32) (main_arg5 : FVec F S64x128 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg2
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S102400x64 : Shape := ⟨2, ![102400, 64]⟩
abbrev S1x128 : Shape := ⟨2, ![1, 128]⟩
abbrev S102400x128 : Shape := ⟨2, ![102400, 128]⟩
abbrev S4096x64 : Shape := ⟨2, ![4096, 64]⟩
abbrev S4096x128 : Shape := ⟨2, ![4096, 128]⟩
abbrev S100000x128 : Shape := ⟨2, ![100000, 128]⟩

abbrev nBuf : Space → Nat
  | .hbm => 44
  | .vmem => 9
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000x64, .f32⟩
  | .hbm, ⟨3, _⟩ => ⟨S64x128, .f32⟩
  | .hbm, ⟨4, _⟩ => ⟨S128, .f32⟩
  | .hbm, ⟨5, _⟩ => ⟨S64x128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S_, .f32⟩
  | .hbm, ⟨24, _⟩ => ⟨S1600000, .f32⟩
  | .hbm, ⟨25, _⟩ => ⟨S_, .f32⟩
  | .hbm, ⟨26, _⟩ => ⟨S100000, .f32⟩
  | .hbm, ⟨27, _⟩ => ⟨S1600000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x64, .f32⟩
  | .hbm, ⟨34, _⟩ => ⟨S100000x64, .f32⟩
  | .hbm, ⟨35, _⟩ => ⟨S_, .i32⟩
  | .hbm, ⟨36, _⟩ => ⟨S_, .f32⟩
  | .hbm, ⟨37, _⟩ => ⟨S102400x64, .f32⟩
  | .hbm, ⟨38, _⟩ => ⟨S_, .i32⟩
  | .hbm, ⟨39, _⟩ => ⟨S_, .f32⟩
  | .hbm, ⟨40, _⟩ => ⟨S102400x64, .f32⟩
  | .hbm, ⟨41, _⟩ => ⟨S1x128, .f32⟩
  | .hbm, ⟨42, _⟩ => ⟨S102400x128, .f32⟩
  | .hbm, ⟨43, _⟩ => ⟨S100000x128, .f32⟩
  | .local _ .vmem, ⟨0, _⟩ => ⟨S4096x64, .f32⟩
  | .local _ .vmem, ⟨1, _⟩ => ⟨S4096x64, .f32⟩
  | .local _ .vmem, ⟨2, _⟩ => ⟨S4096x64, .f32⟩
  | .local _ .vmem, ⟨3, _⟩ => ⟨S4096x64, .f32⟩
  | .local _ .vmem, ⟨4, _⟩ => ⟨S64x128, .f32⟩
  | .local _ .vmem, ⟨5, _⟩ => ⟨S64x128, .f32⟩
  | .local _ .vmem, ⟨6, _⟩ => ⟨S1x128, .f32⟩
  | .local _ .vmem, ⟨7, _⟩ => ⟨S4096x128, .f32⟩
  | .local _ .vmem, ⟨8, _⟩ => ⟨S4096x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_call0_v0 : Ref sig .tc := ⟨.hbm, 36, rfl⟩
abbrev main_v23 : Ref sig .tc := ⟨.hbm, 37, rfl⟩
abbrev main_c_5 : Ref sig .tc := ⟨.hbm, 38, rfl⟩
abbrev main_call1_v0 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  pads_S100000x64_S102400x64_024000_000 : S100000x64.Pads (![0, 0] : Fin 2 → Nat) ![2400, 0] ![0, 0] S102400x64
  h_S_ : 0 < S_.numel
  shapeCasts_S128_S1x128 : S128.ShapeCasts S1x128
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S4096x128_S4096x128_0_0 : ∀ a, (![0, 0] : Fin 2 → Nat) a + S4096x128.size a ≤ S4096x128.size a
  h_S4096x128 : 0 < S4096x128.numel
  slices_S102400x128_S100000x128_0_0 : S102400x128.Slices ![0, 0] S100000x128
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S4096x64_S64x128_S4096x128_1_0_0_1_n_n_wf : DotDims.WF S4096x64 S64x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S102400x64.size a
  hwx0_0 : ∀ i : grid0.Coords, EltTy.bits .f32 = 32 ∨ (Rect.block (s := S102400x64) S4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S102400x64.size a
  hwx0_1 : ∀ i : grid0.Coords, EltTy.bits .f32 = 32 ∨ (Rect.block (s := S102400x64) S4096x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x128.size a ≤ S102400x128.size a
  hwx0_5 : ∀ i : grid0.Coords, EltTy.bits .f32 = 32 ∨ (Rect.block (s := S102400x128) S4096x128.size (cc0_transform_5 i) (hinb0_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf

abbrev win0_0 : Pipeline.Window sig grid0 :=
  Pipeline.Window.ofSpec (Memref.whole main_v23) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S4096x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S100000x128 : Shape := ⟨2, ![100000, 128]⟩
abbrev S1x128 : Shape := ⟨2, ![1, 128]⟩

abbrev nBuf : Space → Nat
  | .hbm => 41
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000x64, .f32⟩
  | .hbm, ⟨3, _⟩ => ⟨S64x128, .f32⟩
  | .hbm, ⟨4, _⟩ => ⟨S128, .f32⟩
  | .hbm, ⟨5, _⟩ => ⟨S64x128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S_, .f32⟩
  | .hbm, ⟨24, _⟩ => ⟨S1600000, .f32⟩
  | .hbm, ⟨25, _⟩ => ⟨S_, .f32⟩
  | .hbm, ⟨26, _⟩ => ⟨S100000, .f32⟩
  | .hbm, ⟨27, _⟩ => ⟨S1600000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x64, .f32⟩
  | .hbm, ⟨34, _⟩ => ⟨S100000x64, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x128_S100000x128_1_0_0_1_n_n_wf : DotDims.WF S100000x64 S64x128 S100000x128 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf

class Facts : Prop extends Facts₀ where

variable [Facts]
-- ==== Proof.LibPlainMatmul.lean ====
/-
  A plain matrix product read at an entry.  For the dimension numbers of an `M × K` by `K × N` product
  (`DotDims.plain`: the left operand contracted on its columns, the right on its rows, no batch axis), a
  `tpu.matmul` into the zero splat is, at the extended reals and at row `r`, column `c`, the sum over
  `k : Fin K` of the left operand at `(r, k)` times the right at `(k, c)`.  Nothing here names a program.
-/
import Idealize.ShloMosaic.PureOps.Ideal.Laws
import Idealize.ShloMosaic.Lib.ValueIdx

namespace Cert.PlainMatmul

open Idealize.ShloMosaic Idealize.ShloMosaic.ValueIdx

/-- The left operand's index of a plain product at output `(r, c)` and contraction coordinate `k` is `(r, k)`. -/
theorem lhsIdx_plain {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 r c) _).trans hk

/-- The right operand's index there is `(k, c)`. -/
theorem rhsIdx_plain {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  apply Fin.ext
  match a with
  | ⟨0, _⟩ => exact ((DotDims.plain M K N).rhsIdx_val_of_single rfl (ix2 r c) _).trans hk
  | ⟨1, _⟩ => rfl

/-- A plain `tpu.matmul` into zeros, at entry `(r, c)`, is `∑ k, a (r, k) * b (k, c)` on the extended reals. -/
theorem matmul_plain_zero_apply {M K N : ℕ} {φ₁ φ₂ : FTy}
    (a : FVec Ideal ⟨2, ![M, K]⟩ φ₁) (b : FVec Ideal ⟨2, ![K, N]⟩ φ₂) (prec : Option ContractPrecision) (r : Fin M) (c : Fin N) :
    matmul (DotDims.plain M K N) prec a b (constant ⟨2, ![M, N]⟩ .f32 0x00000000#32) (ix2 r c)
      = ∑ k : Fin K, a (ix2 r k) * b (ix2 k c) := by
  show FloatOps.matmul (DotDims.plain M K N) prec a b (constant ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.PlainMatmul
-- ==== Proof.SageSpec.lean ====
/-
  The layer's result as ONE function of its operands, on the extended reals.  With `a` the matrix of neighbour means
  (one row per node, 64 columns), `h` the node features, `wl` and `wr` the two 64 × 128 weight matrices and `b` the bias,
  entry `(r, q)` of the result is

      (∑ k, a (r, k) · wl (k, q)  +  ∑ k, h (r, k) · wr (k, q))  +  b q,

  the two sums taken over the 64 columns, added in this order.  An entry reads row `r` of `a` and of `h` only: that is
  what lets a matrix with extra rows appended stand in for the shorter one on the rows they share.
-/
import Idealize.ShloMosaic.PureOps.Ideal
import Idealize.ShloMosaic.Lib.ValueIdx

noncomputable section

namespace Cert.Sage

open Idealize.ShloMosaic Idealize.ShloMosaic.ValueIdx
open scoped BigOperators

/-- A matrix of extended reals with `R` rows and `C` columns. -/
abbrev Mat (R C : ℕ) : Type := FVec Ideal ⟨2, ![R, C]⟩ .f32

/-- Entry `(r, q)` of the layer's result. -/
def entry {R : ℕ} (a h : Mat R 64) (wl wr : Mat 64 128) (b : Fin 128 → Ideal .f32) (r : Fin R) (q : Fin 128) : Ideal .f32 :=
  (∑ k : Fin 64, a (ix2 r k) * wl (ix2 k q) + ∑ k : Fin 64, h (ix2 r k) * wr (ix2 k q)) + b q

/-- The layer's result, all rows. -/
def layer {R : ℕ} (a h : Mat R 64) (wl wr : Mat 64 128) (b : Fin 128 → Ideal .f32) : Mat R 128 :=
  fun i => entry a h wl wr b (i 0) (i 1)

theorem layer_apply {R : ℕ} (a h : Mat R 64) (wl wr : Mat 64 128) (b : Fin 128 → Ideal .f32) (r : Fin R) (q : Fin 128) :
    layer a h wl wr b (ix2 r q) = entry a h wl wr b r q := rfl

/-- An entry reads row `r` of the two left operands, column `q` of the two right operands, and `b q`, and nothing else. -/
theorem entry_congr {R R' : ℕ} (a h : Mat R 64) (a' h' : Mat R' 64) (wl wr wl' wr' : Mat 64 128) (b b' : Fin 128 → Ideal .f32)
    (r : Fin R) (r' : Fin R') (q q' : Fin 128)
    (ha : ∀ k : Fin 64, a (ix2 r k) = a' (ix2 r' k)) (hh : ∀ k : Fin 64, h (ix2 r k) = h' (ix2 r' k))
    (hwl : ∀ k : Fin 64, wl (ix2 k q) = wl' (ix2 k q')) (hwr : ∀ k : Fin 64, wr (ix2 k q) = wr' (ix2 k q')) (hb : b q = b' q') :
    entry a h wl wr b r q = entry a' h' wl' wr' b' r' q' := by
  unfold entry
  rw [hb, Finset.sum_congr rfl fun k _ => congrArg₂ (· * ·) (ha k) (hwl k),
    Finset.sum_congr rfl fun k _ => congrArg₂ (· * ·) (hh k) (hwr k)]

end Cert.Sage

end
-- ==== Proof.BlockValue.lean ====
/-
  What the kernel body computes on one block.  With `x0`, `x1` the two 4096 × 64 blocks it loads, `w0`, `w1` the two
  64 × 128 weight matrices and `bb` the 1 × 128 bias row, the value it stores is, at row `p` and column `q`,

      (∑ k, x0 (p, k) · w0 (k, q)  +  ∑ k, x1 (p, k) · w1 (k, q))  +  bb (0, q):

  on the extended reals the narrowing of the operands before the products is the identity, each product into a zero
  accumulator is the plain sum over the 64 contracted columns, and the bias row is repeated down the 4096 rows.
-/
import proofs.«149952_j69724499083377_1_alg».proof.Proof.Gen.KernelIdeal.Skeleton
import proofs.«149952_j69724499083377_1_alg».proof.Proof.LibPlainMatmul
import proofs.«149952_j69724499083377_1_alg».proof.Proof.SageSpec
import Idealize.ShloMosaic.Lib.Pipeline.Value

noncomputable section

namespace Cert.KernelIdeal.BlockValue

open Cert.KernelIdeal Cert.KernelIdeal.Gen Idealize.ShloMosaic Idealize.ShloMosaic.ValueIdx
open scoped BigOperators

/-- The body's product: operands narrowed, accumulator zero.  At `(p, q)` it is the sum of products over the columns. -/
theorem product_apply (x : FVec Ideal S4096x64 .f32) (w : FVec Ideal S64x128 .f32) (p : Fin 4096) (q : Fin 128) :
    matmul dot_S4096x64_S64x128_S4096x128_1_0_0_1_n_n none
        (truncf .bf16 (shapeCast S4096x64 x shapeCasts_S4096x64_S4096x64) bitsLt_bf16_f32) (truncf .bf16 w bitsLt_bf16_f32)
        (constant S4096x128 .f32 0x00000000#32) (ix2 p q)
      = ∑ k : Fin 64, x (ix2 p k) * w (ix2 k q) := by
  refine (Cert.PlainMatmul.matmul_plain_zero_apply
    (truncf .bf16 (shapeCast S4096x64 x shapeCasts_S4096x64_S4096x64) bitsLt_bf16_f32) (truncf .bf16 w bitsLt_bf16_f32) none p q).trans ?_
  refine Finset.sum_congr rfl fun k _ => ?_
  rw [truncf_apply, truncf_apply, shapeCast_self]

/-- The bias row repeated down the rows: at `(p, q)` it is the row's entry `q`. -/
theorem bias_apply (bb : FVec Ideal S1x128 .f32) (p : Fin 4096) (q : Fin 128) :
    broadcastTo S4096x128 (shapeCast S1x128 bb shapeCasts_S1x128_S1x128) broadcasts_S1x128_S4096x128 (ix2 p q) = bb (ix2 0 q) := by
  rw [shapeCast_self]
  exact broadcastTo_apply bb broadcasts_S1x128_S4096x128 (ix2 p q) (ix2 0 q) (fun a => match a with
    | ⟨0, _⟩ => by show 0 = if (1 : Nat) = 1 then 0 else _; rw [if_pos rfl]
    | ⟨1, _⟩ => by show q.val = if (128 : Nat) = 1 then 0 else q.val; rw [if_neg (by decide)])

/-- The stored value at `(p, q)`: the layer's entry on the block, the bias read from the row. -/
theorem stored_apply (x0 x1 : Vec Ideal S4096x64 .f32) (w0 w1 : Vec Ideal S64x128 .f32) (bb : Vec Ideal S1x128 .f32)
    (p : Fin 4096) (q : Fin 128) :
    k0_pay1 (F := Ideal) x0 x1 w0 w1 bb (ix2 p q)
      = Cert.Sage.entry (R := 4096) x0 x1 w0 w1 (fun q' => bb (ix2 0 q')) p q := by
  unfold k0_pay1 Cert.Sage.entry
  exact congrArg₂ (· + ·) (congrArg₂ (· + ·) (product_apply x0 w0 p q) (product_apply x1 w1 p q)) (bias_apply bb p q)

/-- The stored block, whole: the layer on the 4096 rows of the block. -/
theorem stored_eq (x0 x1 : Vec Ideal S4096x64 .f32) (w0 w1 : Vec Ideal S64x128 .f32) (bb : Vec Ideal S1x128 .f32) :
    k0_pay1 (F := Ideal) x0 x1 w0 w1 bb = Cert.Sage.layer (R := 4096) x0 x1 w0 w1 (fun q' => bb (ix2 0 q')) := by
  funext j
  obtain ⟨p, q, rfl⟩ : ∃ (p : Fin 4096) (q : Fin 128), j = ix2 p q := ⟨j 0, j 1, eq_ix2 j⟩
  exact stored_apply x0 x1 w0 w1 bb p q

end Cert.KernelIdeal.BlockValue

end
-- ==== Proof.OutArray.lean ====
/-
  The kernel's output array after the run.  The grid has 25 points; point `t` reads rows `4096 t … 4096 t + 4095` of
  the two padded 102400 × 64 operands, the two weight matrices and the bias row whole, and writes back rows
  `4096 t … 4096 t + 4095` of the 102400 × 128 output.  What it writes back is the block's rows of ONE function of the
  arrays as the region finds them: the layer applied to the two padded operands.  The 25 blocks tile the output's rows
  (row `r` lies in block `r / 4096`), so after the run the output array is that function.
-/
import proofs.«149952_j69724499083377_1_alg».proof.Proof.Gen.KernelIdeal.Frame
import proofs.«149952_j69724499083377_1_alg».proof.Proof.BlockValue

set_option maxRecDepth 16384

noncomputable section

namespace Cert.KernelIdeal.OutArray

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

theorem zero_offsets : (![0, 0] : Fin 2 → Nat) = fun _ => 0 := funext fun a => by fin_cases a <;> rfl

/-- The padded matrix of neighbour means, as the region finds it. -/
abbrev meanPad (c : Dev nD) : Cert.Sage.Mat 102400 64 := V m c main_v23
/-- The padded node features. -/
abbrev featPad (c : Dev nD) : Cert.Sage.Mat 102400 64 := V m c main_v24
/-- The two weight matrices. -/
abbrev wL (c : Dev nD) : Cert.Sage.Mat 64 128 := V m c main_arg3
abbrev wR (c : Dev nD) : Cert.Sage.Mat 64 128 := V m c main_arg5
/-- The bias as a 1 × 128 row. -/
abbrev biasRow (c : Dev nD) : FVec Ideal S1x128 .f32 := V m c main_v25

/-- The layer on all 102400 padded rows. -/
abbrev paddedResult (c : Dev nD) : Cert.Sage.Mat 102400 128 :=
  Cert.Sage.layer (meanPad m c) (featPad m c) (wL m c) (wR m c) (fun q => biasRow m c (ix2 0 q))

/-- The printed index maps over the grid: the two row-blocked operands and the output sit at block row `t`, block
    column 0; the weights and the bias at block (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is block `t` of the padded result. -/
theorem flushed_eq (c : Dev nD) (t : Fin cfg0.N) :
    (dats m 0 c).flushed 5 t = ((cfg0.win 5).blk t).view.read (Elt Ideal) (paddedResult m c) := by
  show (cfg0.win 5).cut (grid0.coords t) ((dats m 0 c).after 5 t) = _
  rw [after0_5]
  unfold out0_5
  rw [View.canon_unit_zero zero_offsets]
  simp only [View.ld_unit_zero (S := S4096x64) zero_offsets, View.ld_unit_zero (S := S64x128) zero_offsets,
    View.ld_unit_zero (S := S1x128) zero_offsets]
  obtain ⟨e00, e01, e10, e11, e20, e21, e30, e31, e40, e41, e50, e51⟩ := index_facts t
  funext j
  have hj0 : (j 0).val < 4096 := (j 0).isLt
  have hj1 : (j 1).val < 128 := (j 1).isLt
  refine (congrFun (Cert.KernelIdeal.BlockValue.stored_eq (iblk m c 0 t) (iblk m c 1 t) (iblk m c 2 t) (iblk m c 3 t) (iblk m c 4 t))
    ((cfg0.win 5).xinj (grid0.coords t) j)).trans ?_
  show Cert.Sage.entry (iblk m c 0 t) (iblk m c 1 t) (iblk m c 2 t) (iblk m c 3 t) (fun q' => iblk m c 4 t (ix2 0 q'))
      ((cfg0.win 5).xinj (grid0.coords t) j 0) ((cfg0.win 5).xinj (grid0.coords t) j 1)
    = Cert.Sage.entry (meanPad m c) (featPad m c) (wL m c) (wR m c) (fun q => biasRow m c (ix2 0 q))
      (((cfg0.win 5).blk t).view.emb j 0) (((cfg0.win 5).blk t).view.emb j 1)
  refine Cert.Sage.entry_congr _ _ _ _ _ _ _ _ _ _ _ _ _ _ (fun k => ?_) (fun k => ?_) (fun k => ?_) (fun k => ?_) ?_
  · show V m c main_v23 (((cfg0.win 0).blk t).view.emb (ix2 ((cfg0.win 5).xinj (grid0.coords t) j 0) k)) = V m c main_v23 (ix2 (((cfg0.win 5).blk t).view.emb j 0) k)
    refine congrArg (V m c main_v23) (funext fun a => Fin.ext ?_)
    match a with
    | ⟨0, _⟩ => show win0_0.index t (0 : Fin 2) * 4096 + 1 * (j 0).val = win0_5.index t (0 : Fin 2) * 4096 + 1 * (j 0).val; omega
    | ⟨1, _⟩ => show win0_0.index t (1 : Fin 2) * 64 + 1 * k.val = k.val; omega
  · show V m c main_v24 (((cfg0.win 1).blk t).view.emb (ix2 ((cfg0.win 5).xinj (grid0.coords t) j 0) k)) = V m c main_v24 (ix2 (((cfg0.win 5).blk t).view.emb j 0) k)
    refine congrArg (V m c main_v24) (funext fun a => Fin.ext ?_)
    match a with
    | ⟨0, _⟩ => show win0_1.index t (0 : Fin 2) * 4096 + 1 * (j 0).val = win0_5.index t (0 : Fin 2) * 4096 + 1 * (j 0).val; omega
    | ⟨1, _⟩ => show win0_1.index t (1 : Fin 2) * 64 + 1 * k.val = k.val; omega
  · show V m c main_arg3 (((cfg0.win 2).blk t).view.emb (ix2 k ((cfg0.win 5).xinj (grid0.coords t) j 1))) = V m c main_arg3 (ix2 k (((cfg0.win 5).blk t).view.emb j 1))
    refine congrArg (V m c main_arg3) (funext fun a => Fin.ext ?_)
    match a with
    | ⟨0, _⟩ => show win0_2.index t (0 : Fin 2) * 64 + 1 * k.val = k.val; omega
    | ⟨1, _⟩ => show win0_2.index t (1 : Fin 2) * 128 + 1 * (j 1).val = win0_5.index t (1 : Fin 2) * 128 + 1 * (j 1).val; omega
  · show V m c main_arg5 (((cfg0.win 3).blk t).view.emb (ix2 k ((cfg0.win 5).xinj (grid0.coords t) j 1))) = V m c main_arg5 (ix2 k (((cfg0.win 5).blk t).view.emb j 1))
    refine congrArg (V m c main_arg5) (funext fun a => Fin.ext ?_)
    match a with
    | ⟨0, _⟩ => show win0_3.index t (0 : Fin 2) * 64 + 1 * k.val = k.val; omega
    | ⟨1, _⟩ => show win0_3.index t (1 : Fin 2) * 128 + 1 * (j 1).val = win0_5.index t (1 : Fin 2) * 128 + 1 * (j 1).val; omega
  · show V m c main_v25 (((cfg0.win 4).blk t).view.emb (ix2 0 ((cfg0.win 5).xinj (grid0.coords t) j 1))) = V m c main_v25 (ix2 0 (((cfg0.win 5).blk t).view.emb j 1))
    refine congrArg (V m c main_v25) (funext fun a => Fin.ext ?_)
    match a with
    | ⟨0, _⟩ => show win0_4.index t (0 : Fin 2) * 1 + 1 * 0 = 0; omega
    | ⟨1, _⟩ => show win0_4.index t (1 : Fin 2) * 128 + 1 * (j 1).val = win0_5.index t (1 : Fin 2) * 128 + 1 * (j 1).val; omega

/-- An index of the output array is in point `t`'s block iff each coordinate is in the block's range on its axis. -/
theorem mem_block (t : Fin cfg0.N) (i : S102400x128.Idx) :
    i ∈ ((cfg0.win 5).blk t).view.set ↔ ∀ a : Fin 2, win0_5.index t a * S4096x128.size a ≤ (i a).val ∧ (i a).val < win0_5.index t a * S4096x128.size a + S4096x128.size a := by
  show i ∈ ((View.whole main_v26).slice (win0_5.rect t)).set ↔ _
  rw [View.set_slice_whole, Rect.mem_set_unit]
  exact Iff.rfl

/-- Every row of the output lies in the block of the point `row / 4096`. -/
theorem covered (i : S102400x128.Idx) :
    ∃ t : Fin cfg0.N, (cfg0.win 5).flush t = true ∧ i ∈ ((cfg0.win 5).blk t).view.set := by
  have hi0 : (i 0).val < 102400 := (i 0).isLt
  have hi1 : (i 1).val < 128 := (i 1).isLt
  have hN : cfg0.N = 25 := N_0
  let t : Fin cfg0.N := ⟨(i 0).val / 4096, by rw [hN]; omega⟩
  obtain ⟨-, -, -, -, -, -, -, -, -, -, e50, e51⟩ := index_facts t
  have e50' : win0_5.index t (0 : Fin 2) = (i 0).val / 4096 := e50
  refine ⟨t, flush0_5 t, ?_⟩
  rw [mem_block]
  intro a
  match a with
  | ⟨0, _⟩ => show win0_5.index t (0 : Fin 2) * 4096 ≤ (i 0).val ∧ (i 0).val < win0_5.index t (0 : Fin 2) * 4096 + 4096; omega
  | ⟨1, _⟩ => show win0_5.index t (1 : Fin 2) * 128 ≤ (i 1).val ∧ (i 1).val < win0_5.index t (1 : Fin 2) * 128 + 128; omega

/-- The output array after the run is the padded result. -/
theorem final (c : Dev nD) : (dats m 0 c).arrAt 5 cfg0.N = paddedResult m c :=
  (dats m 0 c).arrAt_eq_of_cover 5 (paddedResult m c) (fun t _ => flushed_eq m c t) covered

end Cert.KernelIdeal.OutArray

end
-- ==== Proof.HostPrefix.lean ====
/-
  The arrays the kernel region finds, as functions of the program's arguments.  Before the region the host computes the
  matrix of neighbour means from the edge list and the node features (gather the source rows, add them up per
  destination, divide by the clamped in-degree), appends 2400 rows of padding to it and to the node features, and
  reshapes the bias into a 1 × 128 row.  The neighbour-mean matrix is, operation for operation, the one the reference
  program computes from the same two arguments; on the first 100000 rows each padded matrix is the matrix it pads.
-/
import proofs.«149952_j69724499083377_1_alg».proof.Proof.Gen.KernelIdeal.Frame
import proofs.«149952_j69724499083377_1_alg».proof.Proof.Gen.ReferenceIdeal.Read
import Idealize.ShloMosaic.Lib.StableHlo.Run
import Idealize.ShloMosaic.Lib.KernelVsHost
import Idealize.ShloMosaic.Lib.Pipeline.Value

set_option maxRecDepth 16384

noncomputable section

namespace Cert.KernelIdeal.HostPrefix

open Cert.KernelIdeal Cert.KernelIdeal.Gen Idealize.ShloMosaic Idealize.ShloMosaic.TcCoe Idealize.ShloMosaic.ValueIdx
open Idealize.SL Idealize.SL.Sem Idealize.ShloMosaic.StableHlo

variable (m : (ℓ : Loc nD τ sig) → Buf (Elt Ideal) ℓ)

/-- The matrix of neighbour means of an edge list `e` and node features `x`: the reference program's own term for it. -/
abbrev meanOf (e : (⟨S2x1600000, .i32⟩ : BufTy).Contents (Elt Ideal)) (x : (⟨S100000x64, .f32⟩ : BufTy).Contents (Elt Ideal)) :
    (⟨S100000x64, .f32⟩ : BufTy).Contents (Elt Ideal) :=
  Cert.ReferenceIdeal.Read.val_main_v22 (F := Ideal) e x

/-- A stretch of host operations run after another is the two run in turn. -/
theorem after_append (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => simp only [List.cons_append, after_cons, ih]

theorem flatten_five {α : Type} (a b c d e : List α) : List.flatten [a, b, c, d, e] = a ++ (b ++ (c ++ (d ++ (e ++ [])))) := rfl

/-- The buffers' contents once the first stretch — the one that computes the neighbour means — has run. -/
abbrev afterMeans (c : Dev nD) : Valuation τ sig (Elt Ideal) := StableHlo.after hostOps0 (fun b => m (c, b))

set_option maxHeartbeats 1000000 in
/-- What the region finds is what the four later stretches (the two padding calls and the bias reshape) leave of that. -/
theorem V0_eq (c : Dev nD) :
    V0 m c = StableHlo.after (hostOps0_1 ++ (hostOps0_2 ++ (hostOps0_3 ++ (hostOps0_4 ++ [])))) (afterMeans m c) := by
  show StableHlo.after (List.flatten [hostOps0, hostOps0_1, hostOps0_2, hostOps0_3, hostOps0_4]) (fun b => m (c, b)) = _
  rw [flatten_five, after_append]

set_option maxHeartbeats 2000000 in
/-- The first stretch leaves the neighbour means in their buffer. -/
theorem means_value (c : Dev nD) :
    (afterMeans m c (Proc.devRef .tc main_v22) : S100000x64.Idx → EReal)
      = meanOf (m ((c : Thread nD τ).loc main_arg1)) (m ((c : Thread nD τ).loc main_arg2)) := by
  dsimp only [afterMeans]
  simp only [hostOps0]
  after_results_simp
  rfl

set_option maxHeartbeats 2000000 in
/-- It leaves the integer zero the first padding call converts. -/
theorem zero_value (c : Dev nD) :
    (afterMeans m c (Proc.devRef .tc main_c_4) : S_.Idx → BitVec 32) = constantI S_ 32 0#32 := by
  dsimp only [afterMeans]
  simp only [hostOps0]
  after_results_simp

set_option maxHeartbeats 2000000 in
/-- It leaves the node features as launched. -/
theorem feat_value (c : Dev nD) :
    afterMeans m c (Proc.devRef .tc main_arg2) = m ((c : Thread nD τ).loc main_arg2) := by
  dsimp only [afterMeans]
  simp only [hostOps0]
  after_results_simp

set_option maxHeartbeats 2000000 in
/-- It leaves the bias as launched. -/
theorem bias_value (c : Dev nD) :
    afterMeans m c (Proc.devRef .tc main_arg4) = m ((c : Thread nD τ).loc main_arg4) := by
  dsimp only [afterMeans]
  simp only [hostOps0]
  after_results_simp

/-- The later stretches, from any contents `W`: the first padding call pads the neighbour means below with the
    converted zero, -/
theorem pads_means (W : Valuation τ sig (Elt Ideal)) :
    (StableHlo.after (hostOps0_1 ++ (hostOps0_2 ++ (hostOps0_3 ++ (hostOps0_4 ++ [])))) W (Proc.devRef .tc main_v23) : S102400x64.Idx → EReal)
      = pad S102400x64 ![0, 0] ![2400, 0] ![0, 0] (W (Proc.devRef .tc main_v22) : S100000x64.Idx → EReal)
          (sitofp (F := Ideal) .f32 (W (Proc.devRef .tc main_c_4) : S_.Idx → BitVec 32)) pads_S100000x64_S102400x64_024000_000 h_S_ := by
  simp only [hostOps0_1, hostOps0_2, hostOps0_3, hostOps0_4, List.cons_append, List.nil_append]
  after_results_simp
  rfl

/-- the second pads the node features the same way, -/
theorem pads_feat (W : Valuation τ sig (Elt Ideal)) :
    (StableHlo.after (hostOps0_1 ++ (hostOps0_2 ++ (hostOps0_3 ++ (hostOps0_4 ++ [])))) W (Proc.devRef .tc main_v24) : S102400x64.Idx → EReal)
      = pad S102400x64 ![0, 0] ![2400, 0] ![0, 0] (W (Proc.devRef .tc main_arg2) : S100000x64.Idx → EReal)
          (sitofp (F := Ideal) .f32 (constantI S_ 32 0#32)) pads_S100000x64_S102400x64_024000_000 h_S_ := by
  simp only [hostOps0_1, hostOps0_2, hostOps0_3, hostOps0_4, List.cons_append, List.nil_append]
  after_results_simp
  rfl

/-- and the last line reshapes the bias into a row. -/
theorem reshapes_bias (W : Valuation τ sig (Elt Ideal)) :
    (StableHlo.after (hostOps0_1 ++ (hostOps0_2 ++ (hostOps0_3 ++ (hostOps0_4 ++ [])))) W (Proc.devRef .tc main_v25) : S1x128.Idx → EReal)
      = shapeCast S1x128 (W (Proc.devRef .tc main_arg4) : S128.Idx → EReal) shapeCasts_S128_S1x128 := by
  simp only [hostOps0_1, hostOps0_2, hostOps0_3, hostOps0_4, List.cons_append, List.nil_append]
  after_results_simp
  rfl

/-- The padded neighbour-mean matrix the region finds. -/
theorem meanPad_eq (c : Dev nD) :
    (V m c main_v23 : S102400x64.Idx → EReal)
      = pad S102400x64 ![0, 0] ![2400, 0] ![0, 0]
          (meanOf (m ((c : Thread nD τ).loc main_arg1)) (m ((c : Thread nD τ).loc main_arg2)))
          (sitofp (F := Ideal) .f32 (constantI S_ 32 0#32)) pads_S100000x64_S102400x64_024000_000 h_S_ := by
  have h := pads_means (afterMeans m c)
  rw [means_value m c, zero_value m c] at h
  exact (congrFun (V0_eq m c) (Proc.devRef .tc main_v23)).trans h

/-- The padded node features the region finds. -/
theorem featPad_eq (c : Dev nD) :
    (V m c main_v24 : S102400x64.Idx → EReal)
      = pad S102400x64 ![0, 0] ![2400, 0] ![0, 0] (m ((c : Thread nD τ).loc main_arg2))
          (sitofp (F := Ideal) .f32 (constantI S_ 32 0#32)) pads_S100000x64_S102400x64_024000_000 h_S_ := by
  have h := pads_feat (afterMeans m c)
  rw [feat_value m c] at h
  exact (congrFun (V0_eq m c) (Proc.devRef .tc main_v24)).trans h

/-- The bias row the region finds. -/
theorem biasRow_eq (c : Dev nD) :
    (V m c main_v25 : S1x128.Idx → EReal) = shapeCast S1x128 (m ((c : Thread nD τ).loc main_arg4)) shapeCasts_S128_S1x128 := by
  have h := reshapes_bias (afterMeans m c)
  rw [bias_value m c] at h
  exact (congrFun (V0_eq m c) (Proc.devRef .tc main_v25)).trans h

/-- A matrix padded below, read at one of its own rows, is the matrix there. -/
theorem pad_row (x : S100000x64.Idx → EReal) (v : S_.Idx → EReal) (r : Fin 100000) (k : Fin 64) :
    pad S102400x64 ![0, 0] ![2400, 0] ![0, 0] x v pads_S100000x64_S102400x64_024000_000 h_S_
        (ix2 (⟨r.val, Nat.lt_trans r.isLt (by decide)⟩ : Fin 102400) k) = x (ix2 r k) :=
  pad_apply_of_inside ![0, 0] ![2400, 0] ![0, 0] x v pads_S100000x64_S102400x64_024000_000 h_S_ _ (ix2 r k) (fun a => match a with
    | ⟨0, _⟩ => by show r.val = 0 + r.val * (0 + 1); omega
    | ⟨1, _⟩ => by show k.val = 0 + k.val * (0 + 1); omega)

/-- Row `r < 100000` of the padded neighbour-mean matrix is row `r` of the neighbour means. -/
theorem meanPad_row (c : Dev nD) (r : Fin 100000) (k : Fin 64) :
    (V m c main_v23 : S102400x64.Idx → EReal) (ix2 (⟨r.val, Nat.lt_trans r.isLt (by decide)⟩ : Fin 102400) k)
      = meanOf (m ((c : Thread nD τ).loc main_arg1)) (m ((c : Thread nD τ).loc main_arg2)) (ix2 r k) := by
  rw [meanPad_eq]; exact pad_row _ _ r k

/-- Row `r < 100000` of the padded node features is row `r` of the node features. -/
theorem featPad_row (c : Dev nD) (r : Fin 100000) (k : Fin 64) :
    (V m c main_v24 : S102400x64.Idx → EReal) (ix2 (⟨r.val, Nat.lt_trans r.isLt (by decide)⟩ : Fin 102400) k)
      = m ((c : Thread nD τ).loc main_arg2) (ix2 r k) := by
  rw [featPad_eq]; exact pad_row _ _ r k

/-- Entry `q` of the bias row is entry `q` of the bias. -/
theorem biasRow_entry (c : Dev nD) (q : Fin 128) :
    (V m c main_v25 : S1x128.Idx → EReal) (ix2 0 q) = m ((c : Thread nD τ).loc main_arg4) (ix1 q) := by
  rw [biasRow_eq]
  exact shapeCast_apply _ shapeCasts_S128_S1x128 (ix2 0 q) (ix1 q)
    (by rewrite [Shape.rowMajor_val_one, Shape.rowMajor_val_two]; show q.val = 0 * 128 + q.val; omega)

end Cert.KernelIdeal.HostPrefix

end
-- ==== Proof.KernelRun.lean ====
/-
  The kernel program's run, with its result named.  After the region the host keeps the first 100000 rows of the
  102400 × 128 output.  Row `r < 100000` of the padded result reads row `r` of the two padded operands, which is row
  `r` of the neighbour means and of the node features; so the kept rows are the layer of the neighbour means, the node
  features, the two weight matrices and the bias: the padding rows never reach the result.
-/
import proofs.«149952_j69724499083377_1_alg».proof.Proof.OutArray
import proofs.«149952_j69724499083377_1_alg».proof.Proof.HostPrefix

set_option maxRecDepth 16384

noncomputable section

namespace Cert.KernelIdeal.Result

open Cert.KernelIdeal Cert.KernelIdeal.Gen Idealize.ShloMosaic Idealize.ShloMosaic.TcCoe Idealize.ShloMosaic.ValueIdx
open Idealize.SL Idealize.SL.Sem Idealize.ShloMosaic.StableHlo
open Cert.KernelIdeal.OutArray Cert.KernelIdeal.HostPrefix

variable (m : (ℓ : Loc nD τ sig) → Buf (Elt Ideal) ℓ) (ρ : Dev nD → PrngReg)

/-- The layer's result from the program's arguments. -/
abbrev result (c : Dev nD) : Cert.Sage.Mat 100000 128 :=
  Cert.Sage.layer (R := 100000)
    (meanOf (m ((c : Thread nD τ).loc main_arg1)) (m ((c : Thread nD τ).loc main_arg2)))
    (m ((c : Thread nD τ).loc main_arg2)) (m ((c : Thread nD τ).loc main_arg3)) (m ((c : Thread nD τ).loc main_arg5))
    (fun q => m ((c : Thread nD τ).loc main_arg4) (ix1 q))

/-- The first 100000 rows of the padded result are the result. -/
theorem kept_rows (c : Dev nD) :
    extractStridedSlice S100000x128 ![0, 0] (paddedResult m c) slices_S102400x128_S100000x128_0_0 = result m c := by
  funext i
  obtain ⟨r, q, rfl⟩ : ∃ (r : Fin 100000) (q : Fin 128), i = ix2 r q := ⟨i 0, i 1, eq_ix2 i⟩
  refine (extractStridedSlice_apply ![0, 0] (paddedResult m c) slices_S102400x128_S100000x128_0_0 (ix2 r q)
    (ix2 (⟨r.val, Nat.lt_trans r.isLt (by decide)⟩ : Fin 102400) q) (fun a => match a with
      | ⟨0, _⟩ => by show r.val = 0 + r.val; omega
      | ⟨1, _⟩ => by show q.val = 0 + q.val; omega)).trans ?_
  show Cert.Sage.entry (meanPad m c) (featPad m c) (wL m c) (wR m c) (fun q => biasRow m c (ix2 0 q))
      (⟨r.val, Nat.lt_trans r.isLt (by decide)⟩ : Fin 102400) q
    = Cert.Sage.entry (meanOf (m ((c : Thread nD τ).loc main_arg1)) (m ((c : Thread nD τ).loc main_arg2)))
      (m ((c : Thread nD τ).loc main_arg2)) (m ((c : Thread nD τ).loc main_arg3)) (m ((c : Thread nD τ).loc main_arg5))
      (fun q => m ((c : Thread nD τ).loc main_arg4) (ix1 q)) r q
  refine Cert.Sage.entry_congr _ _ _ _ _ _ _ _ _ _ _ _ _ _ (fun k => meanPad_row m c r k) (fun k => featPad_row m c r k)
    (fun k => ?_) (fun k => ?_) (biasRow_entry m c q)
  · exact congrFun (V_main_arg3 m c) (ix2 k q)
  · exact congrFun (V_main_arg5 m c) (ix2 k q)

set_option maxHeartbeats 4000000 in
/-- What the host's last line leaves in the result buffer: the kept rows of the output array after the region. -/
theorem tail_value (c : Dev nD) :
    Pipeline.afterTail₀ cfgs (dats m) 0 (V0 m) [hostOps1] c main_v27 = result m c := by
  unfold Pipeline.afterTail₀
  show StableHlo.after hostOps1 _ (Proc.devRef .tc main_v27) = _
  after_results
  have h1 := (Pipeline.withArrays_arr spec0 launch0.win.arr_inj c (V0 m c) (fun w => (dats m 0 c).arrAt w cfg0.N) 5).trans (final m c)
  refine Eq.trans ?_ (kept_rows m c)
  exact congrArg (fun X => extractStridedSlice S100000x128 ![0, 0] X slices_S102400x128_S100000x128_0_0) h1

/-- The run of the kernel program: every weakly fair execution terminates with the result buffer at the layer's result
    and the arguments as launched. -/
theorem run : θ_run defs (onTc (τ := τ) (main (F := Ideal))) ⟨m, fun _ => 0, ρ⟩ fun r => ∀ c : Dev nD,
      r.2.mem ((c.tc : Thread nD τ).loc main_v27) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨((h c).2 main_v27 (Pipeline.mem_restRefs_of main_v27 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).2 main_arg4 (Pipeline.mem_restRefs_of main_arg4 (by decide) (by decide))).trans (W_main_arg4 m (dats m) c),
      ((h c).1 3).trans (((dats m 0 c).arrAt_in 3 rfl _).trans ((A_eq m c 3).trans (V_main_arg5 m c)))⟩)
    (run_main m ρ)

end Cert.KernelIdeal.Result

end
-- ==== Proof.RefValue.lean ====
/-
  The reference program's result as the layer's function.  Its last stages are two matrix products — the neighbour
  means by the first weight matrix, the node features by the second —, their sum, and the bias repeated down the rows
  and added.  Read at entry `(r, q)`, each product is the sum over the 64 contracted columns, so the result there is

      (∑ k, mean (r, k) · wl (k, q)  +  ∑ k, x (r, k) · wr (k, q))  +  b q:

  the layer's entry, with no law of arithmetic used beyond reading each stage at an index.
-/
import proofs.«149952_j69724499083377_1_alg».proof.Proof.Gen.ReferenceIdeal.Read
import proofs.«149952_j69724499083377_1_alg».proof.Proof.SageSpec

noncomputable section

namespace Cert.ReferenceIdeal.RefValue

open Cert.ReferenceIdeal Cert.ReferenceIdeal.Gen Cert.ReferenceIdeal.Read Idealize.ShloMosaic Idealize.ShloMosaic.ValueIdx
open scoped BigOperators

theorem left_index (r : Fin 100000) (q : Fin 128) (k : Fin 64) : lidx_main_v23 (ix2 r q) k = ix2 r k :=
  funext fun a => match a with | ⟨0, _⟩ => rfl | ⟨1, _⟩ => rfl
theorem right_index (r : Fin 100000) (q : Fin 128) (k : Fin 64) : ridx_main_v23 (ix2 r q) k = ix2 k q :=
  funext fun a => match a with | ⟨0, _⟩ => rfl | ⟨1, _⟩ => rfl
theorem left_index' (r : Fin 100000) (q : Fin 128) (k : Fin 64) : lidx_main_v24 (ix2 r q) k = ix2 r k :=
  funext fun a => match a with | ⟨0, _⟩ => rfl | ⟨1, _⟩ => rfl
theorem right_index' (r : Fin 100000) (q : Fin 128) (k : Fin 64) : ridx_main_v24 (ix2 r q) k = ix2 k q :=
  funext fun a => match a with | ⟨0, _⟩ => rfl | ⟨1, _⟩ => rfl
theorem bias_index (r : Fin 100000) (q : Fin 128) : idx_main_v26 (idx_main_v27 (ix2 r q)) = ix1 q :=
  funext fun a => match a with | ⟨0, _⟩ => rfl

/-- The reference's result is the layer of the neighbour means it computes, the node features, the two weight
    matrices and the bias. -/
theorem result_eq (x1 : (⟨S2x1600000, .i32⟩ : BufTy).Contents (Elt Ideal)) (x2 : (⟨S100000x64, .f32⟩ : BufTy).Contents (Elt Ideal))
    (x3 : (⟨S64x128, .f32⟩ : BufTy).Contents (Elt Ideal)) (x4 : (⟨S128, .f32⟩ : BufTy).Contents (Elt Ideal))
    (x5 : (⟨S64x128, .f32⟩ : BufTy).Contents (Elt Ideal)) :
    val_main_v28 (F := Ideal) x1 x2 x3 x4 x5
      = Cert.Sage.layer (R := 100000) (val_main_v22 (F := Ideal) x1 x2) x2 x3 x5 (fun q => x4 (ix1 q)) := by
  funext i
  obtain ⟨r, q, rfl⟩ : ∃ (r : Fin 100000) (q : Fin 128), i = ix2 r q := ⟨i 0, i 1, eq_ix2 i⟩
  rw [val_main_v28_apply, val_main_v25_apply, val_main_v23_apply, val_main_v24_apply, val_main_v27_apply, val_main_v26_apply,
    bias_index]
  simp only [left_index, right_index, left_index', right_index']
  rfl

end Cert.ReferenceIdeal.RefValue

end
-- ==== Proof.lean ====
/-
  The certificate's claim, assembled.

  Both programs compute one layer of neighbourhood aggregation.  From the edge list and the node features each first
  builds the matrix of neighbour means: the source rows gathered, summed per destination node, and divided by the
  in-degree clamped below at one.  The two programs do this with the same host operations, so the two matrices are one
  term of the arguments.  The result is then, at row r and column q,

      (∑ k, mean (r, k) · wl (k, q)  +  ∑ k, x (r, k) · wr (k, q))  +  b q.

  The reference takes the two products over all 100000 rows at once.  The kernel pads the two left operands with 2400
  rows, takes the products 4096 rows at a time over a grid of 25 points, and drops the padded rows afterwards; on the
  extended reals its narrowing of the operands is the identity, a product into a zero accumulator is the plain sum over
  the 64 contracted columns, and an entry of the result reads one row of each left operand only, so the rows kept are
  the reference's, entry by entry, with the sums in the same order: no law of arithmetic is needed, and the finiteness of
  the inputs is never used.

  The two kernel programs' frames are the generated ones; the reference's frame is its generated run with the result
  dropped; the idealization rewrote nothing, so it is preserved trivially.
-/
import proofs.«149952_j69724499083377_1_alg».proof.Defs
import proofs.«149952_j69724499083377_1_alg».proof.Proof.Gen.Kernel
import proofs.«149952_j69724499083377_1_alg».proof.Proof.Gen.Kernel.Skeleton
import proofs.«149952_j69724499083377_1_alg».proof.Proof.Gen.Kernel.Launch
import proofs.«149952_j69724499083377_1_alg».proof.Proof.Gen.Kernel.Points
import proofs.«149952_j69724499083377_1_alg».proof.Proof.Gen.Kernel.Frame
import proofs.«149952_j69724499083377_1_alg».proof.Proof.Gen.KernelIdeal
import proofs.«149952_j69724499083377_1_alg».proof.Proof.Gen.KernelIdeal.Skeleton
import proofs.«149952_j69724499083377_1_alg».proof.Proof.Gen.KernelIdeal.Launch
import proofs.«149952_j69724499083377_1_alg».proof.Proof.Gen.KernelIdeal.Points
import proofs.«149952_j69724499083377_1_alg».proof.Proof.Gen.KernelIdeal.Frame
import proofs.«149952_j69724499083377_1_alg».proof.Proof.Gen.ReferenceIdeal
import proofs.«149952_j69724499083377_1_alg».proof.Proof.Gen.Pre_finite_inputs
import proofs.«149952_j69724499083377_1_alg».proof.Proof.Gen.ReferenceIdeal.Run
import proofs.«149952_j69724499083377_1_alg».proof.Proof.Gen.ReferenceIdeal.Read
import proofs.«149952_j69724499083377_1_alg».proof.Proof.KernelRun
import proofs.«149952_j69724499083377_1_alg».proof.Proof.RefValue
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments, the kernel program's result buffer ends at the layer of its own
    arguments and the reference's at the layer of its own: the same matrix. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨-, h1, h2, h3, h4, h5⟩ := hagree c
  rw [Cert.ReferenceIdeal.Read.val_main_v28_eq, Cert.ReferenceIdeal.RefValue.result_eq, h1, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
